-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1280 : Shape := ⟨2, ![16384, 1280]⟩
abbrev S2x2048x2048 : Shape := ⟨3, ![2, 2048, 2048]⟩
abbrev S_ : Shape := ⟨0, ![]⟩

class Facts : Prop where
  bcast_S_S16384x1280 : S_.BroadcastsInDim S16384x1280 (![] : Fin 0 → Fin S16384x1280.rank)
  reducesTo_S16384x1280_S_d0_1 : S16384x1280.ReducesTo [0, 1] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn {F : FTy → Type} [FloatOps F] (main_arg0 : FVec F S16384x1280 .f32) (main_arg1 : FVec F S2x2048x2048 .f32) : IVec S_ 1 :=
  let main_v0 : FVec F S16384x1280 .f32 := Host.absf main_arg0
  let main_cst : FVec F S_ .f32 := constant S_ .f32 0x7F800000#32
  let main_v1 : FVec F S16384x1280 .f32 := broadcastInDim S16384x1280 ![] bcast_S_S16384x1280 main_cst
  let main_v2 : IVec S16384x1280 1 := cmpf .olt main_v0 main_v1
  let main_c : IVec S_ 1 := constantI S_ 1 1#1
  let main_v3 : IVec S_ 1 := (fun x v => Host.reduce IntOp.andi x v reducesTo_S16384x1280_S_d0_1 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  main_v8
-- ==== Kernel.lean ====
abbrev S16384x1280 : Shape := ⟨2, ![16384, 1280]⟩
abbrev S2x2048x2048 : Shape := ⟨3, ![2, 2048, 2048]⟩
abbrev S2x2048x1280 : Shape := ⟨3, ![2, 2048, 1280]⟩
abbrev S1280x2x2048 : Shape := ⟨3, ![1280, 2, 2048]⟩
abbrev S1280x4096 : Shape := ⟨2, ![1280, 4096]⟩
abbrev S16384x8192 : Shape := ⟨2, ![16384, 8192]⟩
abbrev S256x1280 : Shape := ⟨2, ![256, 1280]⟩
abbrev S256x8192 : Shape := ⟨2, ![256, 8192]⟩
abbrev S256x4096 : Shape := ⟨2, ![256, 4096]⟩

abbrev nBuf : Space → Nat
  | .hbm => 7
  | .vmem => 5
  | .smem => 0
  | _ => 0

abbrev bufTy : (tb : Table) → Fin (tcTables nBuf tb) → BufTy
  | .hbm, ⟨0, _⟩ => ⟨S16384x1280, .f32⟩
  | .hbm, ⟨1, _⟩ => ⟨S2x2048x2048, .f32⟩
  | .hbm, ⟨2, _⟩ => ⟨S2x2048x1280, .f32⟩
  | .hbm, ⟨3, _⟩ => ⟨S1280x2x2048, .f32⟩
  | .hbm, ⟨4, _⟩ => ⟨S1280x4096, .f32⟩
  | .hbm, ⟨5, _⟩ => ⟨S1280x4096, .bf16⟩
  | .hbm, ⟨6, _⟩ => ⟨S16384x8192, .f32⟩
  | .local _ .vmem, ⟨0, _⟩ => ⟨S256x1280, .f32⟩
  | .local _ .vmem, ⟨1, _⟩ => ⟨S256x1280, .f32⟩
  | .local _ .vmem, ⟨2, _⟩ => ⟨S1280x4096, .bf16⟩
  | .local _ .vmem, ⟨3, _⟩ => ⟨S256x8192, .f32⟩
  | .local _ .vmem, ⟨4, _⟩ => ⟨S256x8192, .f32⟩
  | _, _ => ⟨S16384x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x2048x2048_S2x2048x1280_0_0_0 : S2x2048x2048.Slices ![0, 0, 0] S2x2048x1280
  transposes_S2x2048x1280_S1280x2x2048_2_0_1 : S2x2048x1280.Transposes [2, 0, 1] S1280x2x2048
  shapeCasts_S1280x2x2048_S1280x4096 : S1280x2x2048.ShapeCasts S1280x4096
  bitsLt_bf16_f32 : FTy.bits .bf16 < FTy.bits .f32
  inb_S256x1280_S256x1280_0_0 : ∀ a, (![0, 0] : Fin 2 → Nat) a + S256x1280.size a ≤ S256x1280.size a
  h_S256x1280 : 0 < S256x1280.numel
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  inb_S256x8192_S256x4096_0_0 : ∀ a, (![0, 0] : Fin 2 → Nat) a + S256x4096.size a ≤ S256x8192.size a
  h_S256x4096 : 0 < S256x4096.numel
  inb_S256x8192_S256x4096_0_4096 : ∀ a, (![0, 4096] : Fin 2 → Nat) a + S256x4096.size a ≤ S256x8192.size a
  dot_S256x1280_S1280x4096_S256x4096_1_0_0_1_n_n_wf : DotDims.WF S256x1280 S1280x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1280.size a ≤ S16384x1280.size a
  hwx0_0 : ∀ i : grid0.Coords, EltTy.bits .f32 = 32 ∨ (Rect.block (s := S16384x1280) S256x1280.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S1280x4096.size a
  hwx0_1 : ∀ i : grid0.Coords, EltTy.bits .bf16 = 32 ∨ (Rect.block (s := S1280x4096) S1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S16384x8192.size a
  hwx0_2 : ∀ i : grid0.Coords, EltTy.bits .f32 = 32 ∨ (Rect.block (s := S16384x8192) S256x8192.size (cc0_transform_2 i) (hinb0_2 i)).WholeWords (EltTy.packing .f32)

variable [Facts₀]

def dot_S256x1280_S1280x4096_S256x4096_1_0_0_1_n_n : DotDims S256x1280 S1280x4096 S256x4096 where
  lhsContracting := [1]
  rhsContracting := [0]
  lhsNonContracting := [0]
  rhsNonContracting := [1]
  lhsBatch := []
  rhsBatch := []
  wf := dot_S256x1280_S1280x4096_S256x4096_1_0_0_1_n_n_wf

abbrev win0_0 : Pipeline.Window sig grid0 :=
  Pipeline.Window.ofSpec (Memref.whole main_arg0) S256x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1280x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1280 : Shape := ⟨2, ![16384, 1280]⟩
abbrev S2x2048x2048 : Shape := ⟨3, ![2, 2048, 2048]⟩
abbrev S_ : Shape := ⟨0, ![]⟩
abbrev S16384x2048 : Shape := ⟨2, ![16384, 2048]⟩
abbrev S16384x2x2048 : Shape := ⟨3, ![16384, 2, 2048]⟩
abbrev S16384x4096 : Shape := ⟨2, ![16384, 4096]⟩
abbrev S16384x8192 : Shape := ⟨2, ![16384, 8192]⟩

abbrev nBuf : Space → Nat
  | .hbm => 13
  | .vmem => 0
  | .smem => 0
  | _ => 0

abbrev bufTy : (tb : Table) → Fin (tcTables nBuf tb) → BufTy
  | .hbm, ⟨0, _⟩ => ⟨S16384x1280, .f32⟩
  | .hbm, ⟨1, _⟩ => ⟨S2x2048x2048, .f32⟩
  | .hbm, ⟨2, _⟩ => ⟨S_, .i32⟩
  | .hbm, ⟨3, _⟩ => ⟨S_, .f32⟩
  | .hbm, ⟨4, _⟩ => ⟨S16384x2048, .f32⟩
  | .hbm, ⟨5, _⟩ => ⟨S16384x2x2048, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x8192, .f32⟩
  | .hbm, ⟨10, _⟩ => ⟨S_, .f32⟩
  | .hbm, ⟨11, _⟩ => ⟨S16384x8192, .f32⟩
  | .hbm, ⟨12, _⟩ => ⟨S16384x8192, .f32⟩
  | _, _ => ⟨S16384x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  pads_S16384x1280_S16384x2048_000_07680 : S16384x1280.Pads (![0, 0] : Fin 2 → Nat) ![0, 768] ![0, 0] S16384x2048
  h_S_ : 0 < S_.numel
  shapeCasts_S16384x2x2048_S16384x4096 : S16384x2x2048.ShapeCasts S16384x4096
  concatenates_S16384x4096_S16384x4096_S16384x8192_d1 : Shape.Concatenates [S16384x4096, S16384x4096] S16384x8192 1
  bcast_S_S16384x8192 : S_.BroadcastsInDim S16384x8192 (![] : Fin 0 → Fin S16384x8192.rank)
  dot_S16384x2048_S2x2048x2048_S16384x2x2048_1_2_0_01_n_n_wf : DotDims.WF S16384x2048 S2x2048x2048 S16384x2x2048 [1] [2] [0] [0, 1] [] []

variable [Facts₀]

def dot_S16384x2048_S2x2048x2048_S16384x2x2048_1_2_0_01_n_n : DotDims S16384x2048 S2x2048x2048 S16384x2x2048 where
  lhsContracting := [1]
  rhsContracting := [2]
  lhsNonContracting := [0]
  rhsNonContracting := [0, 1]
  lhsBatch := []
  rhsBatch := []
  wf := dot_S16384x2048_S2x2048x2048_S16384x2x2048_1_2_0_01_n_n_wf

class Facts : Prop extends Facts₀ where

variable [Facts]
-- ==== Proof.Spec.lean ====
/-
  What the program computes, as one function of its two arguments.

  The arguments are a batch x of 16384 rows of 1280 numbers and a stack s of two 2048 × 2048 matrices. Row b of the
  batch is projected onto the 4096 rows of the stack (row j of the stack being row j % 2048 of matrix j / 2048), but
  only the first 1280 columns of a stack row take part:

      proj x s b j = ∑ d < 1280, x (b, d) · s (j / 2048, j % 2048, d).

  The result has 8192 columns: column j < 4096 holds cos (proj x s b j) / 64 and column 4096 + j holds
  sin (proj x s b j) / 64. Dividing by 64 is written here as multiplying by the real number 1/64, which is the same
  function on every extended real.

  Two facts about sums and constants are proved here because both programs need them:
  a sum over 2048 positions whose terms beyond position 1280 carry a zero factor is the sum over the first 1280
  positions (only 0 · y = 0 is used, which holds on the extended reals for every y, the infinities included); and the
  two single-precision patterns the programs spell denote exactly 64 and exactly 1/64.
-/
import Idealize.ShloMosaic.PureOps.Ideal.Laws
import Idealize.ShloMosaic.Lib.ValueIdx

noncomputable section

open scoped BigOperators

namespace Cert.Sorf

open Idealize.ShloMosaic Idealize.ShloMosaic.ValueIdx

/-! ## The two constants -/

/-- The pattern of the single-precision number 64.0 denotes the real 64. -/
theorem ofBits_64 : Ideal.ofBits .f32 0x42800000#32 = ((64 : ℝ) : EReal) := by
  simp [Ideal.ofBits, Ideal.ieee, -EReal.coe_mul]; norm_num

/-- The pattern of the single-precision number 0.015625 denotes the real 1/64: a power of two, so exact. -/
theorem ofBits_inv64 : Ideal.ofBits .f32 0x3C800000#32 = ((1 / 64 : ℝ) : EReal) := by
  simp [Ideal.ofBits, Ideal.ieee, -EReal.coe_mul]; norm_num

/-- Dividing an extended real by the pattern of 64.0 is multiplying it by 1/64. -/
theorem div_64 (y : EReal) : Ideal.div y (Ideal.ofBits .f32 0x42800000#32) = y * ((1 / 64 : ℝ) : EReal) := by
  rw [ofBits_64]; exact Ideal.div_coe (by norm_num) y

/-! ## The function -/

/-- Row `b` of the batch against row `j` of the stack (row `j % 2048` of matrix `j / 2048`), over the first 1280
    columns. The column `j` is a natural number; only `j < 4096` is ever used. -/
def proj (x : (⟨2, ![16384, 1280]⟩ : Shape).Idx → EReal) (s : (⟨3, ![2, 2048, 2048]⟩ : Shape).Idx → EReal)
    (b : Fin 16384) (j : ℕ) : EReal :=
  ∑ d : Fin 1280, x (ix2 b d) * s (ix3 (⟨j / 2048 % 2, Nat.mod_lt _ (by norm_num)⟩ : Fin 2)
    (⟨j % 2048, Nat.mod_lt _ (by norm_num)⟩ : Fin 2048) (⟨d.val, lt_trans d.isLt (by norm_num)⟩ : Fin 2048))

/-- The result array: cosines of the projections in the first 4096 columns, sines in the last 4096, all over 64. -/
def feat (x : (⟨2, ![16384, 1280]⟩ : Shape).Idx → EReal) (s : (⟨3, ![2, 2048, 2048]⟩ : Shape).Idx → EReal) :
    (⟨2, ![16384, 8192]⟩ : Shape).Idx → EReal := fun e =>
  if (e 1).val < 4096 then Ideal.cos (proj x s (e 0) (e 1).val) * ((1 / 64 : ℝ) : EReal)
  else Ideal.sin (proj x s (e 0) ((e 1).val - 4096)) * ((1 / 64 : ℝ) : EReal)

/-- An entry in the first 4096 columns. -/
theorem feat_lo (x : (⟨2, ![16384, 1280]⟩ : Shape).Idx → EReal) (s : (⟨3, ![2, 2048, 2048]⟩ : Shape).Idx → EReal)
    (e : (⟨2, ![16384, 8192]⟩ : Shape).Idx) (b : Fin 16384) (j : ℕ) (h0 : e 0 = b) (h1 : (e 1).val = j) (hj : j < 4096) :
    feat x s e = Ideal.cos (proj x s b j) * ((1 / 64 : ℝ) : EReal) := by
  subst h0 h1
  unfold feat
  rw [if_pos hj]

/-- An entry in the last 4096 columns. -/
theorem feat_hi (x : (⟨2, ![16384, 1280]⟩ : Shape).Idx → EReal) (s : (⟨3, ![2, 2048, 2048]⟩ : Shape).Idx → EReal)
    (e : (⟨2, ![16384, 8192]⟩ : Shape).Idx) (b : Fin 16384) (j : ℕ) (h0 : e 0 = b) (h1 : (e 1).val = j + 4096) :
    feat x s e = Ideal.sin (proj x s b j) * ((1 / 64 : ℝ) : EReal) := by
  subst h0
  unfold feat
  rw [if_neg (by omega), h1, Nat.add_sub_cancel]

/-! ## A sum whose tail carries a zero factor -/

/-- If the left factors `p` over 2048 positions are `a` on the first 1280 positions and zero on the rest, the sum of
    the products `p k · q k` is the sum over the first 1280 positions of `a d · q d`: a zero factor makes a zero term. -/
theorem sum_pad (a : Fin 1280 → EReal) (p q : Fin 2048 → EReal)
    (hin : ∀ d : Fin 1280, p ⟨d.val, by have := d.isLt; omega⟩ = a d)
    (hout : ∀ k : Fin 2048, 1280 ≤ k.val → p k = 0) :
    ∑ k : Fin 2048, p k * q k = ∑ d : Fin 1280, a d * q ⟨d.val, by have := d.isLt; omega⟩ := by
  let g : ℕ → EReal := fun n => if h : n < 2048 then p ⟨n, h⟩ * q ⟨n, h⟩ else 0
  have hL : ∑ k : Fin 2048, p k * q k = ∑ n ∈ Finset.range 2048, g n := by
    rw [← Fin.sum_univ_eq_sum_range]
    exact Finset.sum_congr rfl fun k _ => by simp only [g, dif_pos k.isLt]
  have hR : ∑ d : Fin 1280, a d * q ⟨d.val, by have := d.isLt; omega⟩ = ∑ n ∈ Finset.range 1280, g n := by
    rw [← Fin.sum_univ_eq_sum_range]
    exact Finset.sum_congr rfl fun d _ => by
      have hd : d.val < 2048 := by have := d.isLt; omega
      simp only [g, dif_pos hd]
      rw [hin d]
  rw [hL, hR]
  refine (Finset.sum_subset (Finset.range_subset_range.2 (by norm_num)) fun n hn hn' => ?_).symm
  have h1 : n < 2048 := Finset.mem_range.1 hn
  have h2 : 1280 ≤ n := by have := Finset.mem_range.not.1 hn'; omega
  simp only [g, dif_pos h1]
  rw [hout ⟨n, h1⟩ h2, zero_mul]

end Cert.Sorf

end
-- ==== Proof.RefSide.lean ====
/-
  The reference program's result is the function `feat` of its two arguments.

  The reference pads the batch with 768 zero columns to width 2048, contracts the padded row with each full row of the
  stack (2048 terms), lays the 2 × 2048 results of a batch row out as one row of 4096, takes cosines and sines, joins the
  two along the columns and divides by 64. The padded columns contribute zero terms, so each contraction is the sum over
  the first 1280 columns only; the row of 4096 puts stack matrix j / 2048, row j % 2048 at column j.
-/
import proofs.«104682_j56753697849678_1_alg».proof.Proof.Gen.ReferenceIdeal.Read
import proofs.«104682_j56753697849678_1_alg».proof.Proof.Spec
import Idealize.ShloMosaic.Lib.KernelVsHost

noncomputable section

open scoped BigOperators

namespace Cert.ReferenceIdeal.RefValue

open Cert.ReferenceIdeal Cert.ReferenceIdeal.Gen Cert.ReferenceIdeal.Read Idealize.ShloMosaic Idealize.ShloMosaic.ValueIdx

/-- The padding value, the integer zero converted, is the number zero. -/
theorem pad_value (i : S_.Idx) : val_main_call0_v0 (F := Ideal) i = 0 := by
  rw [val_main_call0_v0_apply, val_main_c_apply]
  show ((((0#32 : BitVec 32).toInt : ℤ) : ℝ) : EReal) = 0
  simp

/-- Inside the first 1280 columns the padded batch is the batch. -/
theorem pad_in (x : FVec Ideal S16384x1280 .f32) (b : Fin 16384) (d : Fin 1280) :
    val_main_v0 (F := Ideal) x (ix2 b (⟨d.val, lt_trans d.isLt (by norm_num)⟩ : Fin 2048)) = x (ix2 b d) := by
  unfold val_main_v0
  refine pad_apply_of_inside _ _ _ _ _ _ _ _ (ix2 b d) fun a => ?_
  match a with
  | ⟨0, _⟩ => show b.val = 0 + b.val * (0 + 1); omega
  | ⟨1, _⟩ => show d.val = 0 + d.val * (0 + 1); omega

/-- From column 1280 on the padded batch is zero. -/
theorem pad_out (x : FVec Ideal S16384x1280 .f32) (b : Fin 16384) (k : Fin 2048) (hk : 1280 ≤ k.val) :
    val_main_v0 (F := Ideal) x (ix2 b k) = 0 := by
  unfold val_main_v0
  refine (pad_apply_of_not_inside _ _ _ _ _ _ _ (ix2 b k) (1 : Fin 2) ?_).trans (pad_value _)
  rintro ⟨-, -, h3⟩
  have h4 : (k.val - 0) / (0 + 1) < 1280 := h3
  omega

/-- Entry (b, j) of the row of 4096 contractions is the projection of batch row b on stack row j. -/
theorem z_apply (x : FVec Ideal S16384x1280 .f32) (s : FVec Ideal S2x2048x2048 .f32) (b : Fin 16384) (j : Fin 4096) :
    val_main_v2 (F := Ideal) x s (ix2 b j) = Cert.Sorf.proj x s b j.val := by
  rw [val_main_v2_apply, val_main_v1_apply]
  have hl : ∀ k : Fin 2048, lidx_main_v1 (idx_main_v2 (ix2 b j)) k = ix2 b k := fun k => funext fun a => Fin.ext (by
    match a with
    | ⟨0, _⟩ => show (b.val * 4096 + j.val) / 4096 = b.val; have := j.isLt; omega
    | ⟨1, _⟩ => rfl)
  have hr : ∀ k : Fin 2048, ridx_main_v1 (idx_main_v2 (ix2 b j)) k
      = ix3 (⟨j.val / 2048 % 2, Nat.mod_lt _ (by norm_num)⟩ : Fin 2) (⟨j.val % 2048, Nat.mod_lt _ (by norm_num)⟩ : Fin 2048) k :=
    fun k => funext fun a => Fin.ext (by
      match a with
      | ⟨0, _⟩ => show (b.val * 4096 + j.val) / 2048 % 2 = j.val / 2048 % 2; omega
      | ⟨1, _⟩ => show (b.val * 4096 + j.val) % 2048 = j.val % 2048; omega
      | ⟨2, _⟩ => rfl)
  simp only [hl, hr]
  exact Cert.Sorf.sum_pad (fun d => x (ix2 b d)) (fun k => val_main_v0 (F := Ideal) x (ix2 b k))
    (fun k => s (ix3 (⟨j.val / 2048 % 2, Nat.mod_lt _ (by norm_num)⟩ : Fin 2) (⟨j.val % 2048, Nat.mod_lt _ (by norm_num)⟩ : Fin 2048) k))
    (fun d => pad_in x b d) (fun k hk => pad_out x b k hk)

/-- The reference's result is `feat`: cosines of the projections in the first 4096 columns, sines in the last 4096,
    each divided by 64, which is multiplied by 1/64. -/
theorem ref_eq (x : FVec Ideal S16384x1280 .f32) (s : FVec Ideal S2x2048x2048 .f32) :
    val_main_v7 (F := Ideal) x s = Cert.Sorf.feat x s := by
  funext e
  rw [val_main_v7_apply, val_main_v6_apply, val_main_cst_apply]
  show Ideal.div (val_main_v5 (F := Ideal) x s e) (Ideal.ofBits .f32 0x42800000#32) = _
  rw [Cert.Sorf.div_64]
  have h8 : (e 1).val < 8192 := (e 1).isLt
  by_cases h : (e 1).val < 4096
  · rw [Cert.Sorf.feat_lo x s e (e 0) (e 1).val rfl rfl h]
    congr 1
    unfold val_main_v5
    refine (concatenate_pair_apply_left (s₁ := S16384x4096) (s₂ := S16384x4096) _ _ _ _ e rfl (ix2 (e 0) (⟨(e 1).val, h⟩ : Fin 4096)) fun a => ?_).trans ?_
    · match a with
      | ⟨0, _⟩ => rfl
      | ⟨1, _⟩ => rfl
    · rw [val_main_v3_apply, Ideal.hostUnary_cos_def]
      exact congrArg Ideal.cos (z_apply x s (e 0) (⟨(e 1).val, h⟩ : Fin 4096))
  · rw [Cert.Sorf.feat_hi x s e (e 0) ((e 1).val - 4096) rfl (by omega)]
    congr 1
    unfold val_main_v5
    refine (concatenate_pair_apply_right (s₁ := S16384x4096) (s₂ := S16384x4096) _ _ _ _ e rfl rfl (ix2 (e 0) (⟨(e 1).val - 4096, by omega⟩ : Fin 4096)) (fun a ha => ?_) ?_).trans ?_
    · match a with
      | ⟨0, _⟩ => rfl
      | ⟨1, _⟩ => exact absurd rfl ha
    · show ((e 1).val - 4096) + 4096 = (e 1).val; omega
    · rw [val_main_v4_apply, Ideal.hostUnary_sin_def]
      exact congrArg Ideal.sin (z_apply x s (e 0) (⟨(e 1).val - 4096, by omega⟩ : Fin 4096))

end Cert.ReferenceIdeal.RefValue

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KerPayload.lean ====
/-
  The kernel body's arithmetic at one entry of a block.

  At a grid point the body loads a 256 × 1280 block A of the batch and the whole 1280 × 4096 weight matrix W, forms the
  256 × 4096 product A · W accumulated into zeros, and stores cos (A · W) · c into the left half of the 256 × 8192
  output block and sin (A · W) · c into the right half, c being the constant 0.015625. Read at the ideal values a
  change of number format does nothing and the product's entry (p, q) is the plain sum ∑ d, A (p, d) · W (d, q).
-/
import proofs.«104682_j56753697849678_1_alg».proof.Proof.Gen.KernelIdeal.Skeleton
import proofs.«104682_j56753697849678_1_alg».proof.Proof.LibDotPlain
import proofs.«104682_j56753697849678_1_alg».proof.Proof.Spec
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The body's contraction is the plain 256 × 1280 by 1280 × 4096 matrix product. -/
theorem dot_plain : dot_S256x1280_S1280x4096_S256x4096_1_0_0_1_n_n = DotDims.plain 256 1280 4096 := rfl

/-- Entry (p, q) of the product the body forms: the sum over the 1280 columns of the batch block's row p against the
    weight matrix's column q. The narrowing of the batch block to half precision and the cast of the weight matrix to
    its own shape change nothing. -/
theorem prod_apply (v0 : Vec Ideal S256x1280 .f32) (v2 : Vec Ideal S1280x4096 .bf16) (p : Fin 256) (q : Fin 4096) :
    k0_pay1 (F := Ideal) v0 v2 (ix2 p q) = ∑ d : Fin 1280, v0 (ix2 p d) * v2 (ix2 d q) := by
  unfold k0_pay1
  simp only [matmul]
  rw [shapeCast_self, dot_plain]
  exact Cert.LibDotPlain.matmul_zero_plain 256 1280 4096 none (truncf .bf16 v0 bitsLt_bf16_f32) v2 p q

/-- What the body stores into the left half, at entry (p, q): the cosine of the product's entry times 1/64. -/
theorem cos_apply (v0 : Vec Ideal S256x1280 .f32) (v2 : Vec Ideal S1280x4096 .bf16) (p : Fin 256) (q : Fin 4096) :
    k0_pay2 (F := Ideal) v0 v2 (ix2 p q)
      = Ideal.cos (∑ d : Fin 1280, v0 (ix2 p d) * v2 (ix2 d q)) * ((1 / 64 : ℝ) : EReal) := by
  rw [← prod_apply v0 v2 p q, ← Cert.Sorf.ofBits_inv64]
  rfl

/-- What the body stores into the right half, at entry (p, q): the sine of the product's entry times 1/64. -/
theorem sin_apply (v0 : Vec Ideal S256x1280 .f32) (v2 : Vec Ideal S1280x4096 .bf16) (p : Fin 256) (q : Fin 4096) :
    k0_pay3 (F := Ideal) v0 v2 (ix2 p q)
      = Ideal.sin (∑ d : Fin 1280, v0 (ix2 p d) * v2 (ix2 d q)) * ((1 / 64 : ℝ) : EReal) := by
  rw [← prod_apply v0 v2 p q, ← Cert.Sorf.ofBits_inv64]
  rfl

end Cert.KernelIdeal.Body

end
-- ==== Proof.KerHost.lean ====
/-
  The weight matrix the kernel's one region finds.

  Before the region the program cuts the stack s (2 × 2048 × 2048) down to its first 1280 columns, moves the column
  axis to the front (1280 × 2 × 2048), lays the last two axes out as one of 4096 and narrows the numbers to half
  precision, which at the ideal values changes nothing. So entry (d, q) of the 1280 × 4096 weight matrix is
  s (q / 2048, q % 2048, d): column q of the weight matrix is row q % 2048 of stack matrix q / 2048, cut to 1280 entries.
-/
import proofs.«104682_j56753697849678_1_alg».proof.Proof.Gen.KernelIdeal.Frame
import Idealize.ShloMosaic.Lib.Pipeline.Value
import Idealize.ShloMosaic.Lib.StableHlo.Run
import Idealize.ShloMosaic.Lib.ValueIdx

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight matrix as the four operations before the region compute it from the stack. -/
theorem weights_term (c : Dev nD) :
    @Eq (S1280x4096.Idx → EReal) (V m c main_v3)
      (truncf (F := Ideal) .bf16 (shapeCast S1280x4096 (transpose S1280x2x2048 [2, 0, 1]
          (extractStridedSlice S2x2048x1280 ![0, 0, 0] (m ((c : Thread nD τ).loc main_arg1) : S2x2048x2048.Idx → EReal) slices_S2x2048x2048_S2x2048x1280_0_0_0)
          transposes_S2x2048x1280_S1280x2x2048_2_0_1) shapeCasts_S1280x2x2048_S1280x4096) bitsLt_bf16_f32) := by
  dsimp only [Gen.V, Gen.hostOps0]
  after_results
  rfl

/-- Entry (d, q) of the weight matrix is entry (q / 2048, q % 2048, d) of the stack. -/
theorem weights_apply (c : Dev nD) (d : Fin 1280) (q : Fin 4096) :
    (V m c main_v3 : S1280x4096.Idx → EReal) (ix2 d q)
      = (m ((c : Thread nD τ).loc main_arg1) : S2x2048x2048.Idx → EReal)
          (ix3 (⟨q.val / 2048 % 2, Nat.mod_lt _ (by norm_num)⟩ : Fin 2) (⟨q.val % 2048, Nat.mod_lt _ (by norm_num)⟩ : Fin 2048)
            (⟨d.val, lt_trans d.isLt (by norm_num)⟩ : Fin 2048)) := by
  refine (congrFun (weights_term m c) (ix2 d q)).trans ?_
  refine (truncf_apply _ bitsLt_bf16_f32 (ix2 d q)).trans ?_
  refine (shapeCast_apply _ _ (ix2 d q)
    (ix3 d (⟨q.val / 2048 % 2, Nat.mod_lt _ (by norm_num)⟩ : Fin 2) (⟨q.val % 2048, Nat.mod_lt _ (by norm_num)⟩ : Fin 2048)) ?_).trans ?_
  · rewrite [Shape.rowMajor_val_three, Shape.rowMajor_val_two]
    show (d.val * 2 + q.val / 2048 % 2) * 2048 + q.val % 2048 = d.val * 4096 + q.val
    have := q.isLt
    omega
  refine (transpose_apply _ _ _ _
    (ix3 (⟨q.val / 2048 % 2, Nat.mod_lt _ (by norm_num)⟩ : Fin 2) (⟨q.val % 2048, Nat.mod_lt _ (by norm_num)⟩ : Fin 2048) d) ?_).trans ?_
  · intro b
    match b with
    | ⟨0, _⟩ => rfl
    | ⟨1, _⟩ => rfl
    | ⟨2, _⟩ => rfl
  refine extractStridedSlice_apply _ _ _ _ _ fun a => ?_
  match a with
  | ⟨0, _⟩ => show q.val / 2048 % 2 = 0 + q.val / 2048 % 2; omega
  | ⟨1, _⟩ => show q.val % 2048 = 0 + q.val % 2048; omega
  | ⟨2, _⟩ => show d.val = 0 + d.val; omega

end Cert.KernelIdeal.Weights

end
-- ==== Proof.KerValue.lean ====
/-
  The kernel's result array is the function `feat` of its two arguments.

  The region runs the body at 64 grid points. At point t the body sees rows 256 t … 256 t + 255 of the batch and the whole
  weight matrix, and leaves a 256 × 8192 block that is written back as rows 256 t … 256 t + 255 of the result. The body's
  two stores tile the block: columns 0 … 4095 hold cos (A · W) / 64 and columns 4096 … 8191 hold sin (A · W) / 64. Entry
  (d, q) of the weight matrix is s (q / 2048, q % 2048, d), so entry (p, q) of A · W at point t is the projection of batch
  row 256 t + p on stack row q. The 64 blocks tile the result array (the point that covers row r is r / 256), so the
  array ends holding `feat` everywhere.
-/
import proofs.«104682_j56753697849678_1_alg».proof.Proof.Gen.KernelIdeal.Value
import proofs.«104682_j56753697849678_1_alg».proof.Proof.KerPayload
import proofs.«104682_j56753697849678_1_alg».proof.Proof.KerHost
import proofs.«104682_j56753697849678_1_alg».proof.Proof.Spec

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The output block after the body, entry by entry -/

/-- An entry (p, q) in the left half of the output block is the cosine of entry (p, q) of the product, over 64; the
    product's factors are given as the functions `A` (row p of the batch block) and `W` (column q of the weight matrix). -/
theorem out_lo (x0 : Vec Ideal S256x1280 .f32) (x1 : Vec Ideal S1280x4096 .bf16) (y : S256x8192.Idx) (p : Fin 256) (q : Fin 4096)
    (h0 : (y 0).val = p.val) (h1 : (y 1).val = q.val) (A W : Fin 1280 → EReal)
    (hA : ∀ d, x0 (ix2 p d) = A d) (hW : ∀ d, x1 (ix2 d q) = W d) :
    out0_2 (F := Ideal) x0 x1 y = Ideal.cos (∑ d : Fin 1280, A d * W d) * ((1 / 64 : ℝ) : EReal) := by
  have hy : y = r0_2.emb (ix2 p q) := funext fun a => Fin.ext (by
    match a with
    | ⟨0, _⟩ => show (y 0).val = 0 + 1 * p.val; omega
    | ⟨1, _⟩ => show (y 1).val = 0 + 1 * q.val; omega)
  have hn : y ∉ r0_3.set := by
    rw [Rect.mem_set_unit]
    intro h
    have h4 : 4096 ≤ (y 1).val := (h 1).1
    have := q.isLt
    omega
  unfold out0_2
  refine (View.canon_cons_of_not_mem ⟨r0_3, _⟩ _ hn).trans ?_
  rw [hy, View.canon_cons_emb]
  simp only [View.ld_unit_zero (S := S256x1280) hz, View.ld_unit_zero (S := S1280x4096) hz]
  rw [Cert.KernelIdeal.Body.cos_apply x0 x1 p q]
  simp only [hA, hW]

/-- An entry (p, 4096 + q) in the right half of the output block is the sine of entry (p, q) of the product, over 64. -/
theorem out_hi (x0 : Vec Ideal S256x1280 .f32) (x1 : Vec Ideal S1280x4096 .bf16) (y : S256x8192.Idx) (p : Fin 256) (q : Fin 4096)
    (h0 : (y 0).val = p.val) (h1 : (y 1).val = q.val + 4096) (A W : Fin 1280 → EReal)
    (hA : ∀ d, x0 (ix2 p d) = A d) (hW : ∀ d, x1 (ix2 d q) = W d) :
    out0_2 (F := Ideal) x0 x1 y = Ideal.sin (∑ d : Fin 1280, A d * W d) * ((1 / 64 : ℝ) : EReal) := by
  have hy : y = r0_3.emb (ix2 p q) := funext fun a => Fin.ext (by
    match a with
    | ⟨0, _⟩ => show (y 0).val = 0 + 1 * p.val; omega
    | ⟨1, _⟩ => show (y 1).val = 4096 + 1 * q.val; omega)
  unfold out0_2
  rw [hy, View.canon_cons_emb]
  simp only [View.ld_unit_zero (S := S256x1280) hz, View.ld_unit_zero (S := S1280x4096) hz]
  rw [Cert.KernelIdeal.Body.sin_apply x0 x1 p q]
  simp only [hA, hW]

/-! ## The windows' blocks at a grid point -/

/-- The printed index maps over the 64 grid points: the batch and the result move one block of rows per point, the
    weight matrix stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, d) of the batch block at point t is entry (256 t + p, d) of the batch. -/
theorem xblk_apply (c : Dev nD) (t : Fin cfg0.N) (p : Fin 256) (d : Fin 1280) (b : Fin 16384) (hb : b.val = t.val * 256 + p.val) :
    (iblk m c 0 t : S256x1280.Idx → EReal) (ix2 p d)
      = (m ((c : Thread nD τ).loc main_arg0) : S16384x1280.Idx → EReal) (ix2 b d) := by
  obtain ⟨e0, e1, -⟩ := idx_facts t
  unfold iblk
  rw [View.read_apply]
  show V m c main_arg0 (((cfg0.win 0).blk t).view.emb (ix2 p d)) = _
  refine (congrFun (V_main_arg0 m c) _).trans (congrArg _ (funext fun a => Fin.ext ?_))
  match a with
  | ⟨0, _⟩ => show win0_0.index t (0 : Fin 2) * 256 + 1 * p.val = b.val; omega
  | ⟨1, _⟩ => show win0_0.index t (1 : Fin 2) * 1280 + 1 * d.val = d.val; omega

/-- The weight window's block at every point is the whole weight matrix. -/
theorem wblk_apply (c : Dev nD) (t : Fin cfg0.N) (d : Fin 1280) (q : Fin 4096) :
    (iblk m c 1 t : S1280x4096.Idx → EReal) (ix2 d q) = (V m c main_v3 : S1280x4096.Idx → EReal) (ix2 d q) := by
  obtain ⟨-, -, e2, e3, -⟩ := idx_facts t
  unfold iblk
  rw [View.read_apply]
  show V m c main_v3 (((cfg0.win 1).blk t).view.emb (ix2 d q)) = _
  refine congrArg _ (funext fun a => Fin.ext ?_)
  match a with
  | ⟨0, _⟩ => show win0_1.index t (0 : Fin 2) * 1280 + 1 * d.val = d.val; omega
  | ⟨1, _⟩ => show win0_1.index t (1 : Fin 2) * 4096 + 1 * q.val = q.val; omega

/-! ## What a point writes back, and the array after the run -/

/-- Point t writes back block t of `feat` of the arguments. -/
theorem flushed_eq (c : Dev nD) (t : Fin cfg0.N) :
    (dats m 0 c).flushed 2 t = ((cfg0.win 2).blk t).view.read (Elt Ideal)
      (Cert.Sorf.feat (m ((c : Thread nD τ).loc main_arg0)) (m ((c : Thread nD τ).loc main_arg1))) := by
  rw [Value.flushed2]
  obtain ⟨-, -, -, -, e4, e5⟩ := idx_facts t
  funext y
  rw [View.read_apply]
  show out0_2 (iblk m c 0 t) (iblk m c 1 t) y = Cert.Sorf.feat _ _ (((cfg0.win 2).blk t).view.emb y)
  have hy0 : (y 0).val < 256 := (y 0).isLt
  have hy1 : (y 1).val < 8192 := (y 1).isLt
  have ht : t.val < 64 := lt_of_lt_of_eq t.isLt N_0
  have hE0 : ((((cfg0.win 2).blk t).view.emb y) 0).val = t.val * 256 + (y 0).val := by
    show win0_2.index t (0 : Fin 2) * 256 + 1 * (y 0).val = _; omega
  have hE1 : ((((cfg0.win 2).blk t).view.emb y) 1).val = (y 1).val := by
    show win0_2.index t (1 : Fin 2) * 8192 + 1 * (y 1).val = _; omega
  have hb : t.val * 256 + (y 0).val < 16384 := by omega
  by_cases h : (y 1).val < 4096
  · refine (out_lo (iblk m c 0 t) (iblk m c 1 t) y (y 0) (⟨(y 1).val, h⟩ : Fin 4096) rfl rfl
      (fun d => (m ((c : Thread nD τ).loc main_arg0) : S16384x1280.Idx → EReal) (ix2 (⟨t.val * 256 + (y 0).val, hb⟩ : Fin 16384) d))
      (fun d => (m ((c : Thread nD τ).loc main_arg1) : S2x2048x2048.Idx → EReal)
        (ix3 (⟨(y 1).val / 2048 % 2, Nat.mod_lt _ (by norm_num)⟩ : Fin 2) (⟨(y 1).val % 2048, Nat.mod_lt _ (by norm_num)⟩ : Fin 2048)
          (⟨d.val, lt_trans d.isLt (by norm_num)⟩ : Fin 2048)))
      (fun d => xblk_apply m c t (y 0) d _ rfl)
      (fun d => (wblk_apply m c t d _).trans (Cert.KernelIdeal.Weights.weights_apply m c d _))).trans ?_
    exact (Cert.Sorf.feat_lo _ _ _ (⟨t.val * 256 + (y 0).val, hb⟩ : Fin 16384) (y 1).val (Fin.ext hE0) hE1 h).symm
  · have hq : (y 1).val - 4096 < 4096 := by omega
    refine (out_hi (iblk m c 0 t) (iblk m c 1 t) y (y 0) (⟨(y 1).val - 4096, hq⟩ : Fin 4096) rfl
      (by show (y 1).val = (y 1).val - 4096 + 4096; omega)
      (fun d => (m ((c : Thread nD τ).loc main_arg0) : S16384x1280.Idx → EReal) (ix2 (⟨t.val * 256 + (y 0).val, hb⟩ : Fin 16384) d))
      (fun d => (m ((c : Thread nD τ).loc main_arg1) : S2x2048x2048.Idx → EReal)
        (ix3 (⟨((y 1).val - 4096) / 2048 % 2, Nat.mod_lt _ (by norm_num)⟩ : Fin 2) (⟨((y 1).val - 4096) % 2048, Nat.mod_lt _ (by norm_num)⟩ : Fin 2048)
          (⟨d.val, lt_trans d.isLt (by norm_num)⟩ : Fin 2048)))
      (fun d => xblk_apply m c t (y 0) d _ rfl)
      (fun d => (wblk_apply m c t d _).trans (Cert.KernelIdeal.Weights.weights_apply m c d _))).trans ?_
    exact (Cert.Sorf.feat_hi _ _ _ (⟨t.val * 256 + (y 0).val, hb⟩ : Fin 16384) ((y 1).val - 4096) (Fin.ext hE0)
      (by rw [hE1]; omega)).symm

/-- An index of the result array is in point t's block iff each coordinate is in the block's range on its axis. -/
theorem mem_blk (t : Fin cfg0.N) (i : S16384x8192.Idx) :
    i ∈ ((cfg0.win 2).blk t).view.set ↔ ∀ a : Fin 2, win0_2.index t a * S256x8192.size a ≤ (i a).val
      ∧ (i a).val < win0_2.index t a * S256x8192.size a + S256x8192.size a := by
  show i ∈ ((View.whole main_v4).slice (win0_2.rect t)).set ↔ _
  rw [View.set_slice_whole, Rect.mem_set_unit]
  exact Iff.rfl

/-- The result array after the run is `feat` of the arguments: the 64 blocks of 256 rows tile it. -/
theorem final (c : Dev nD) : (dats m 0 c).arrAt 2 cfg0.N
    = Cert.Sorf.feat (m ((c : Thread nD τ).loc main_arg0)) (m ((c : Thread nD τ).loc main_arg1)) :=
  (dats m 0 c).arrAt_eq_of_cover 2 _ (fun t _ => flushed_eq m c t) fun i => by
    have hi0 : (i 0).val < 16384 := (i 0).isLt
    have hi1 : (i 1).val < 8192 := (i 1).isLt
    have hN : cfg0.N = 64 := N_0
    obtain ⟨t, ht⟩ : ∃ t : Fin cfg0.N, t.val = (i 0).val / 256 := ⟨⟨(i 0).val / 256, by rw [hN]; omega⟩, rfl⟩
    obtain ⟨-, -, -, -, e4, e5⟩ := idx_facts t
    refine ⟨t, flush0_2 t, ?_⟩
    rw [mem_blk]
    intro a
    match a with
    | ⟨0, _⟩ =>
      show win0_2.index t (0 : Fin 2) * 256 ≤ (i 0).val ∧ (i 0).val < win0_2.index t (0 : Fin 2) * 256 + 256
      omega
    | ⟨1, _⟩ =>
      show win0_2.index t (1 : Fin 2) * 8192 ≤ (i 1).val ∧ (i 1).val < win0_2.index t (1 : Fin 2) * 8192 + 8192
      omega

/-- The kernel's run: the result array ends at `feat` of the arguments, and the arguments are unchanged. -/
theorem run : θ_run defs (onTc (τ := τ) (main (F := Ideal))) ⟨m, fun _ => 0, ρ⟩ fun r => ∀ c : Dev nD,
      r.2.mem ((c : Thread nD τ).loc main_v4)
        = Cert.Sorf.feat (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.Whole

end
-- ==== Proof.lean ====
/-
  The kernel and its reference compute the same array.

  Both take a batch x of 16384 rows of 1280 numbers and a stack s of two 2048 × 2048 matrices, and both return, for batch
  row b and stack row j (row j % 2048 of matrix j / 2048, 4096 rows in all), cos (z) / 64 in column j and sin (z) / 64 in
  column 4096 + j, where z = ∑ d < 1280, x (b, d) · s (j / 2048, j % 2048, d) (`Cert.Sorf.feat`).

  The reference pads x with zero columns to width 2048 and contracts over all 2048 columns of s: the padded terms are
  0 · y = 0 for every extended real y, so only the first 1280 remain. The kernel instead cuts s to its first 1280 columns,
  transposes it into a 1280 × 4096 weight matrix and multiplies 256-row blocks of x by it. The kernel multiplies by the
  constant 0.015625, which is exactly 1/64, where the reference divides by 64: the same function on every extended real.
  No law is used that fails at an infinity, so the precondition (finite inputs) is never opened.

  The three frames are the generated ones (the reference's is its generated run with the result dropped), and the
  idealized kernel is the kernel's own text read at the ideal values, so there is nothing to preserve.
-/
import proofs.«104682_j56753697849678_1_alg».proof.Defs
import proofs.«104682_j56753697849678_1_alg».proof.Proof.Gen.Kernel
import proofs.«104682_j56753697849678_1_alg».proof.Proof.Gen.Kernel.Skeleton
import proofs.«104682_j56753697849678_1_alg».proof.Proof.Gen.Kernel.Launch
import proofs.«104682_j56753697849678_1_alg».proof.Proof.Gen.Kernel.Points
import proofs.«104682_j56753697849678_1_alg».proof.Proof.Gen.Kernel.Frame
import proofs.«104682_j56753697849678_1_alg».proof.Proof.Gen.KernelIdeal
import proofs.«104682_j56753697849678_1_alg».proof.Proof.Gen.KernelIdeal.Skeleton
import proofs.«104682_j56753697849678_1_alg».proof.Proof.Gen.KernelIdeal.Launch
import proofs.«104682_j56753697849678_1_alg».proof.Proof.Gen.KernelIdeal.Points
import proofs.«104682_j56753697849678_1_alg».proof.Proof.Gen.KernelIdeal.Frame
import proofs.«104682_j56753697849678_1_alg».proof.Proof.Gen.ReferenceIdeal
import proofs.«104682_j56753697849678_1_alg».proof.Proof.Gen.KernelIdeal.Value
import proofs.«104682_j56753697849678_1_alg».proof.Proof.Gen.ReferenceIdeal.Run
import proofs.«104682_j56753697849678_1_alg».proof.Proof.Gen.ReferenceIdeal.Read
import proofs.«104682_j56753697849678_1_alg».proof.Proof.Gen.Pre_finite_inputs
import proofs.«104682_j56753697849678_1_alg».proof.Proof.Spec
import proofs.«104682_j56753697849678_1_alg».proof.Proof.RefSide
import proofs.«104682_j56753697849678_1_alg».proof.Proof.KerValue
import Idealize.ShloMosaic.Adequacy
import Idealize.ShloMosaic.Init

noncomputable section

namespace Cert.Proof

open Idealize.ShloMosaic Idealize.SL.Sem Cert.Kernel

/-- From memories that agree on the two arguments both programs end with the result array at `feat` of the arguments:
    the kernel by its blocks (`Cert.KernelIdeal.Whole.run`), the reference by its operations read one at a time
    (`Cert.ReferenceIdeal.RefValue.ref_eq`). -/
theorem algebraic : Cert.algebraic_KernelIdeal_ReferenceIdeal := by
  intro m ρ m' ρ' _ hagree
  refine ⟨fun c => Cert.Sorf.feat (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
